-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x320000 : Shape := ⟨2, ![2, 320000]⟩
abbrev S320000 : Shape := ⟨1, ![320000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S320000 : S_.BroadcastsInDim S320000 (![] : Fin 0 → Fin S320000.rank)
  reducesTo_S320000_S_d0 : S320000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x256 .f32) (main_arg1 : IVec S2x320000 32) (main_arg2 : FVec F S320000 .f32) (main_arg3 : FVec F S256x256 .f32) (main_arg4 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x256 : Shape := ⟨2, ![50000, 256]⟩
abbrev S2x320000 : Shape := ⟨2, ![2, 320000]⟩
abbrev S320000 : Shape := ⟨1, ![320000]⟩
abbrev S256x256 : Shape := ⟨2, ![256, 256]⟩
abbrev S256 : Shape := ⟨1, ![256]⟩
abbrev S50000 : Shape := ⟨1, ![50000]⟩
abbrev S1x320000 : Shape := ⟨2, ![1, 320000]⟩
abbrev S370000 : Shape := ⟨1, ![370000]⟩
abbrev S_ : Shape := ⟨0, ![]⟩
abbrev S370000x1 : Shape := ⟨2, ![370000, 1]⟩
abbrev S2000x256 : Shape := ⟨2, ![2000, 256]⟩
abbrev S370000x256 : Shape := ⟨2, ![370000, 256]⟩
abbrev S1x256 : Shape := ⟨2, ![1, 256]⟩

abbrev nBuf : Space → Nat
  | .hbm => 67
  | .vmem => 12
  | .smem => 0
  | _ => 0

abbrev bufTy : (tb : Table) → Fin (tcTables nBuf tb) → BufTy
  | .hbm, ⟨0, _⟩ => ⟨S50000x256, .f32⟩
  | .hbm, ⟨1, _⟩ => ⟨S2x320000, .i32⟩
  | .hbm, ⟨2, _⟩ => ⟨S320000, .f32⟩
  | .hbm, ⟨3, _⟩ => ⟨S256x256, .f32⟩
  | .hbm, ⟨4, _⟩ => ⟨S256, .f32⟩
  | .hbm, ⟨5, _⟩ => ⟨S50000, .i32⟩
  | .hbm, ⟨6, _⟩ => ⟨S1x320000, .i32⟩
  | .hbm, ⟨7, _⟩ => ⟨S320000, .i32⟩
  | .hbm, ⟨8, _⟩ => ⟨S370000, .i32⟩
  | .hbm, ⟨9, _⟩ => ⟨S1x320000, .i32⟩
  | .hbm, ⟨10, _⟩ => ⟨S320000, .i32⟩
  | .hbm, ⟨11, _⟩ => ⟨S370000, .i32⟩
  | .hbm, ⟨12, _⟩ => ⟨S_, .f32⟩
  | .hbm, ⟨13, _⟩ => ⟨S50000, .f32⟩
  | .hbm, ⟨14, _⟩ => ⟨S370000, .f32⟩
  | .hbm, ⟨15, _⟩ => ⟨S_, .f32⟩
  | .hbm, ⟨16, _⟩ => ⟨S50000, .f32⟩
  | .hbm, ⟨17, _⟩ => ⟨S370000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S370000, .i32⟩
  | .hbm, ⟨29, _⟩ => ⟨S370000, .i1⟩
  | .hbm, ⟨30, _⟩ => ⟨S_, .i32⟩
  | .hbm, ⟨31, _⟩ => ⟨S370000, .i32⟩
  | .hbm, ⟨32, _⟩ => ⟨S370000, .i32⟩
  | .hbm, ⟨33, _⟩ => ⟨S370000, .i32⟩
  | .hbm, ⟨34, _⟩ => ⟨S370000x1, .i32⟩
  | .hbm, ⟨35, _⟩ => ⟨S370000, .f32⟩
  | .hbm, ⟨36, _⟩ => ⟨S370000, .f32⟩
  | .hbm, ⟨37, _⟩ => ⟨S_, .i32⟩
  | .hbm, ⟨38, _⟩ => ⟨S370000, .i32⟩
  | .hbm, ⟨39, _⟩ => ⟨S370000, .i1⟩
  | .hbm, ⟨40, _⟩ => ⟨S_, .i32⟩
  | .hbm, ⟨41, _⟩ => ⟨S370000, .i32⟩
  | .hbm, ⟨42, _⟩ => ⟨S370000, .i32⟩
  | .hbm, ⟨43, _⟩ => ⟨S370000, .i32⟩
  | .hbm, ⟨44, _⟩ => ⟨S370000x1, .i32⟩
  | .hbm, ⟨45, _⟩ => ⟨S370000, .f32⟩
  | .hbm, ⟨46, _⟩ => ⟨S370000, .f32⟩
  | .hbm, ⟨47, _⟩ => ⟨S256x256, .f32⟩
  | .hbm, ⟨48, _⟩ => ⟨S50000x256, .f32⟩
  | .hbm, ⟨49, _⟩ => ⟨S_, .i32⟩
  | .hbm, ⟨50, _⟩ => ⟨S370000, .i32⟩
  | .hbm, ⟨51, _⟩ => ⟨S370000, .i1⟩
  | .hbm, ⟨52, _⟩ => ⟨S_, .i32⟩
  | .hbm, ⟨53, _⟩ => ⟨S370000, .i32⟩
  | .hbm, ⟨54, _⟩ => ⟨S370000, .i32⟩
  | .hbm, ⟨55, _⟩ => ⟨S370000, .i32⟩
  | .hbm, ⟨56, _⟩ => ⟨S370000x1, .i32⟩
  | .hbm, ⟨57, _⟩ => ⟨S370000x256, .f32⟩
  | .hbm, ⟨58, _⟩ => ⟨S370000x1, .f32⟩
  | .hbm, ⟨59, _⟩ => ⟨S370000x256, .f32⟩
  | .hbm, ⟨60, _⟩ => ⟨S370000x256, .f32⟩
  | .hbm, ⟨61, _⟩ => ⟨S_, .f32⟩
  | .hbm, ⟨62, _⟩ => ⟨S50000x256, .f32⟩
  | .hbm, ⟨63, _⟩ => ⟨S370000x1, .i32⟩
  | .hbm, ⟨64, _⟩ => ⟨S50000x256, .f32⟩
  | .hbm, ⟨65, _⟩ => ⟨S1x256, .f32⟩
  | .hbm, ⟨66, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x320000_S1x320000_0_0 : S2x320000.Slices ![0, 0] S1x320000
  shapeCasts_S1x320000_S320000 : S1x320000.ShapeCasts S320000
  concatenates_S320000_S50000_S370000_d0 : Shape.Concatenates [S320000, S50000] S370000 0
  slices_S2x320000_S1x320000_1_0 : S2x320000.Slices ![1, 0] S1x320000
  bcast_S_S50000 : S_.BroadcastsInDim S50000 (![] : Fin 0 → Fin S50000.rank)
  bcast_S370000_S370000x1_0 : S370000.BroadcastsInDim S370000x1 (![0] : Fin 1 → Fin S370000x1.rank)
  bcast_S_S370000 : S_.BroadcastsInDim S370000 (![] : Fin 0 → Fin S370000.rank)
  transposes_S256x256_S256x256_1_0 : S256x256.Transposes [1, 0] S256x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S370000x1_S370000x256_0_1 : S370000x1.BroadcastsInDim S370000x256 (![0, 1] : Fin 2 → Fin S370000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S50000_S370000x1_S370000_n_0_0_1_wf : ScatterDims.WF S50000 S370000x1 S370000 [] [0] [0] 1
  gather_S50000_S370000x1_S370000_n_0_n_n_0_1_1_wf : GatherDims.WF S50000 S370000x1 S370000 [] [0] [] [0] [] 1 ![1]
  dot_S2000x256_S256x256_S2000x256_1_0_0_1_n_n_wf : DotDims.WF S2000x256 S256x256 S2000x256 [1] [0] [0] [1] [] []
  gather_S50000x256_S370000x1_S370000x256_1_0_n_n_0_1_1256_wf : GatherDims.WF S50000x256 S370000x1 S370000x256 [1] [0] [] [0] [] 1 ![1, 256]
  scatter_S50000x256_S370000x1_S370000x256_1_0_0_1_wf : ScatterDims.WF S50000x256 S370000x1 S370000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)

variable [Facts₀]

def scatter_S50000_S370000x1_S370000_n_0_0_1 : ScatterDims S50000 S370000x1 S370000 where
  updateWindowDims := []
  insertedWindowDims := [0]
  scatterDimsToOperandDims := [0]
  indexVectorDim := 1
  wf := scatter_S50000_S370000x1_S370000_n_0_0_1_wf
def gather_S50000_S370000x1_S370000_n_0_n_n_0_1_1 : GatherDims S50000 S370000x1 S370000 where
  offsetDims := []
  collapsedSliceDims := [0]
  operandBatchingDims := []
  startIndicesBatchingDims := []
  startIndexMap := [0]
  indexVectorDim := 1
  sliceSizes := ![1]
  wf := gather_S50000_S370000x1_S370000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S370000x1_S370000x256_1_0_n_n_0_1_1256 : GatherDims S50000x256 S370000x1 S370000x256 where
  offsetDims := [1]
  collapsedSliceDims := [0]
  operandBatchingDims := []
  startIndicesBatchingDims := []
  startIndexMap := [0]
  indexVectorDim := 1
  sliceSizes := ![1, 256]
  wf := gather_S50000x256_S370000x1_S370000x256_1_0_n_n_0_1_1256_wf
def scatter_S50000x256_S370000x1_S370000x256_1_0_0_1 : ScatterDims S50000x256 S370000x1 S370000x256 where
  updateWindowDims := [1]
  insertedWindowDims := [0]
  scatterDimsToOperandDims := [0]
  indexVectorDim := 1
  wf := scatter_S50000x256_S370000x1_S370000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x320000 : Shape := ⟨2, ![2, 320000]⟩
abbrev S320000 : Shape := ⟨1, ![320000]⟩
abbrev S256x256 : Shape := ⟨2, ![256, 256]⟩
abbrev S256 : Shape := ⟨1, ![256]⟩
abbrev S50000 : Shape := ⟨1, ![50000]⟩
abbrev S1x320000 : Shape := ⟨2, ![1, 320000]⟩
abbrev S370000 : Shape := ⟨1, ![370000]⟩
abbrev S_ : Shape := ⟨0, ![]⟩
abbrev S370000x1 : Shape := ⟨2, ![370000, 1]⟩
abbrev S370000x256 : Shape := ⟨2, ![370000, 256]⟩
abbrev S1x256 : Shape := ⟨2, ![1, 256]⟩

abbrev nBuf : Space → Nat
  | .hbm => 72
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x320000, .i32⟩
  | .hbm, ⟨2, _⟩ => ⟨S320000, .f32⟩
  | .hbm, ⟨3, _⟩ => ⟨S256x256, .f32⟩
  | .hbm, ⟨4, _⟩ => ⟨S256, .f32⟩
  | .hbm, ⟨5, _⟩ => ⟨S50000, .i32⟩
  | .hbm, ⟨6, _⟩ => ⟨S1x320000, .i32⟩
  | .hbm, ⟨7, _⟩ => ⟨S320000, .i32⟩
  | .hbm, ⟨8, _⟩ => ⟨S370000, .i32⟩
  | .hbm, ⟨9, _⟩ => ⟨S1x320000, .i32⟩
  | .hbm, ⟨10, _⟩ => ⟨S320000, .i32⟩
  | .hbm, ⟨11, _⟩ => ⟨S370000, .i32⟩
  | .hbm, ⟨12, _⟩ => ⟨S_, .f32⟩
  | .hbm, ⟨13, _⟩ => ⟨S50000, .f32⟩
  | .hbm, ⟨14, _⟩ => ⟨S370000, .f32⟩
  | .hbm, ⟨15, _⟩ => ⟨S_, .f32⟩
  | .hbm, ⟨16, _⟩ => ⟨S50000, .f32⟩
  | .hbm, ⟨17, _⟩ => ⟨S370000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S370000, .i32⟩
  | .hbm, ⟨29, _⟩ => ⟨S370000, .i1⟩
  | .hbm, ⟨30, _⟩ => ⟨S_, .i32⟩
  | .hbm, ⟨31, _⟩ => ⟨S370000, .i32⟩
  | .hbm, ⟨32, _⟩ => ⟨S370000, .i32⟩
  | .hbm, ⟨33, _⟩ => ⟨S370000, .i32⟩
  | .hbm, ⟨34, _⟩ => ⟨S370000x1, .i32⟩
  | .hbm, ⟨35, _⟩ => ⟨S370000, .f32⟩
  | .hbm, ⟨36, _⟩ => ⟨S370000, .f32⟩
  | .hbm, ⟨37, _⟩ => ⟨S_, .i32⟩
  | .hbm, ⟨38, _⟩ => ⟨S370000, .i32⟩
  | .hbm, ⟨39, _⟩ => ⟨S370000, .i1⟩
  | .hbm, ⟨40, _⟩ => ⟨S_, .i32⟩
  | .hbm, ⟨41, _⟩ => ⟨S370000, .i32⟩
  | .hbm, ⟨42, _⟩ => ⟨S370000, .i32⟩
  | .hbm, ⟨43, _⟩ => ⟨S370000, .i32⟩
  | .hbm, ⟨44, _⟩ => ⟨S370000x1, .i32⟩
  | .hbm, ⟨45, _⟩ => ⟨S370000, .f32⟩
  | .hbm, ⟨46, _⟩ => ⟨S370000, .f32⟩
  | .hbm, ⟨47, _⟩ => ⟨S256x256, .f32⟩
  | .hbm, ⟨48, _⟩ => ⟨S50000x256, .f32⟩
  | .hbm, ⟨49, _⟩ => ⟨S_, .i32⟩
  | .hbm, ⟨50, _⟩ => ⟨S370000, .i32⟩
  | .hbm, ⟨51, _⟩ => ⟨S370000, .i1⟩
  | .hbm, ⟨52, _⟩ => ⟨S_, .i32⟩
  | .hbm, ⟨53, _⟩ => ⟨S370000, .i32⟩
  | .hbm, ⟨54, _⟩ => ⟨S370000, .i32⟩
  | .hbm, ⟨55, _⟩ => ⟨S370000, .i32⟩
  | .hbm, ⟨56, _⟩ => ⟨S370000x1, .i32⟩
  | .hbm, ⟨57, _⟩ => ⟨S370000x256, .f32⟩
  | .hbm, ⟨58, _⟩ => ⟨S370000x1, .f32⟩
  | .hbm, ⟨59, _⟩ => ⟨S370000x256, .f32⟩
  | .hbm, ⟨60, _⟩ => ⟨S370000x256, .f32⟩
  | .hbm, ⟨61, _⟩ => ⟨S_, .f32⟩
  | .hbm, ⟨62, _⟩ => ⟨S50000x256, .f32⟩
  | .hbm, ⟨63, _⟩ => ⟨S370000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_cst : Ref sig .tc := ⟨.hbm, 68, rfl⟩
abbrev main_call1_v0 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S50000_S370000_d0 : Shape.Concatenates [S320000, S50000] S370000 0
  slices_S2x320000_S1x320000_1_0 : S2x320000.Slices ![1, 0] S1x320000
  bcast_S_S50000 : S_.BroadcastsInDim S50000 (![] : Fin 0 → Fin S50000.rank)
  bcast_S370000_S370000x1_0 : S370000.BroadcastsInDim S370000x1 (![0] : Fin 1 → Fin S370000x1.rank)
  bcast_S_S370000 : S_.BroadcastsInDim S370000 (![] : Fin 0 → Fin S370000.rank)
  transposes_S256x256_S256x256_1_0 : S256x256.Transposes [1, 0] S256x256
  bcast_S370000x1_S370000x256_0_1 : S370000x1.BroadcastsInDim S370000x256 (![0, 1] : Fin 2 → Fin S370000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S370000x1_S370000_n_0_0_1_wf : ScatterDims.WF S50000 S370000x1 S370000 [] [0] [0] 1
  gather_S50000_S370000x1_S370000_n_0_n_n_0_1_1_wf : GatherDims.WF S50000 S370000x1 S370000 [] [0] [] [0] [] 1 ![1]
  dot_S50000x256_S256x256_S50000x256_1_0_0_1_n_n_wf : DotDims.WF S50000x256 S256x256 S50000x256 [1] [0] [0] [1] [] []
  gather_S50000x256_S370000x1_S370000x256_1_0_n_n_0_1_1256_wf : GatherDims.WF S50000x256 S370000x1 S370000x256 [1] [0] [] [0] [] 1 ![1, 256]
  scatter_S50000x256_S370000x1_S370000x256_1_0_0_1_wf : ScatterDims.WF S50000x256 S370000x1 S370000x256 [1] [0] [0] 1

variable [Facts₀]

def scatter_S50000_S370000x1_S370000_n_0_0_1 : ScatterDims S50000 S370000x1 S370000 where
  updateWindowDims := []
  insertedWindowDims := [0]
  scatterDimsToOperandDims := [0]
  indexVectorDim := 1
  wf := scatter_S50000_S370000x1_S370000_n_0_0_1_wf
def gather_S50000_S370000x1_S370000_n_0_n_n_0_1_1 : GatherDims S50000 S370000x1 S370000 where
  offsetDims := []
  collapsedSliceDims := [0]
  operandBatchingDims := []
  startIndicesBatchingDims := []
  startIndexMap := [0]
  indexVectorDim := 1
  sliceSizes := ![1]
  wf := gather_S50000_S370000x1_S370000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S370000x1_S370000x256_1_0_n_n_0_1_1256 : GatherDims S50000x256 S370000x1 S370000x256 where
  offsetDims := [1]
  collapsedSliceDims := [0]
  operandBatchingDims := []
  startIndicesBatchingDims := []
  startIndexMap := [0]
  indexVectorDim := 1
  sliceSizes := ![1, 256]
  wf := gather_S50000x256_S370000x1_S370000x256_1_0_n_n_0_1_1256_wf
def scatter_S50000x256_S370000x1_S370000x256_1_0_0_1 : ScatterDims S50000x256 S370000x1 S370000x256 where
  updateWindowDims := [1]
  insertedWindowDims := [0]
  scatterDimsToOperandDims := [0]
  indexVectorDim := 1
  wf := scatter_S50000x256_S370000x1_S370000x256_1_0_0_1_wf

class Facts : Prop extends Facts₀ where

variable [Facts]
-- ==== Proof.Messages.lean ====
/-
  The message-passing stage both programs share, as functions of the edge list, the edge weights and the
  transformed features.

  Every node gets a self-loop of weight one appended to the edge list (`sources`, `targets`, `weights`). The degree of
  a node is the sum of the weights of the edges that point at it; its normalising factor is the reciprocal square
  root of the degree where the degree is positive and zero elsewhere. An edge's coefficient is its weight times the
  factors of its two endpoints (`edgeNorm`). The aggregated message at a node is the sum, over the edges that point
  at it, of the source node's transformed feature row times the edge's coefficient (`aggregate`). A negative node
  number counts from the end (`wrapped`).
-/
import proofs.«105115_j62921270886996_1_alg».proof.Proof.Gen.ReferenceIdeal

noncomputable section

namespace Cert.ReferenceIdeal.Messages

open Cert.ReferenceIdeal Cert.ReferenceIdeal.Gen Idealize.ShloMosaic

variable {F : FTy → Type} [FloatOps F]

/-- The source node of every edge, then each node once for its self-loop. -/
def sources (e : (⟨S2x320000, .i32⟩ : BufTy).Contents (Elt F)) : (⟨S370000, .i32⟩ : BufTy).Contents (Elt F) :=
  concatenate S370000 0 [⟨S320000, (shapeCast _ (extractStridedSlice S1x320000 ![0, 0] e slices_S2x320000_S1x320000_0_0) shapeCasts_S1x320000_S320000)⟩, ⟨S50000, (iotaInDim S50000 32 0)⟩] concatenates_S320000_S50000_S370000_d0

/-- The target node of every edge, then each node once for its self-loop. -/
def targets (e : (⟨S2x320000, .i32⟩ : BufTy).Contents (Elt F)) : (⟨S370000, .i32⟩ : BufTy).Contents (Elt F) :=
  concatenate S370000 0 [⟨S320000, (shapeCast _ (extractStridedSlice S1x320000 ![1, 0] e slices_S2x320000_S1x320000_1_0) shapeCasts_S1x320000_S320000)⟩, ⟨S50000, (iotaInDim S50000 32 0)⟩] concatenates_S320000_S50000_S370000_d0

/-- The weight of every edge, then one for each self-loop. -/
def weights (w : (⟨S320000, .f32⟩ : BufTy).Contents (Elt F)) : (⟨S370000, .f32⟩ : BufTy).Contents (Elt F) :=
  concatenate S370000 0 [⟨S320000, w⟩, ⟨S50000, (broadcastInDim S50000 ![] bcast_S_S50000 (constant S_ .f32 0x3F800000#32))⟩] concatenates_S320000_S50000_S370000_d0

/-- A node's degree: the weights of the edges that point at it, added up. -/
def degree (e : (⟨S2x320000, .i32⟩ : BufTy).Contents (Elt F)) (w : (⟨S320000, .f32⟩ : BufTy).Contents (Elt F)) : (⟨S50000, .f32⟩ : BufTy).Contents (Elt F) :=
  Host.scatterAdd scatter_S50000_S370000x1_S370000_n_0_0_1 (broadcastInDim S50000 ![] bcast_S_S50000 (constant S_ .f32 0x00000000#32)) (broadcastInDim S370000x1 ![0] bcast_S370000_S370000x1_0 (targets e)) (weights w)

/-- A node's normalising factor: the reciprocal square root of its degree where that is positive, zero elsewhere. -/
def invSqrtDegree (e : (⟨S2x320000, .i32⟩ : BufTy).Contents (Elt F)) (w : (⟨S320000, .f32⟩ : BufTy).Contents (Elt F)) : (⟨S50000, .f32⟩ : BufTy).Contents (Elt F) :=
  select (cmpf .ogt (degree e w) (broadcastInDim S50000 ![] bcast_S_S50000 (constant S_ .f32 0x00000000#32))) (Host.rsqrt (degree e w)) (broadcastInDim S50000 ![] bcast_S_S50000 (id (constant S_ .f32 0x00000000#32)))

/-- A node number read as an index: a negative one counts from the end. -/
def wrapped (ix : (⟨S370000, .i32⟩ : BufTy).Contents (Elt F)) : (⟨S370000, .i32⟩ : BufTy).Contents (Elt F) :=
  select (cmpi .slt ix (broadcastInDim S370000 ![] bcast_S_S370000 (constantI S_ 32 0#32))) (addi ix (broadcastInDim S370000 ![] bcast_S_S370000 (constantI S_ 32 50000#32))) ix

/-- An edge's coefficient: the source's factor times the weight times the target's factor. -/
def edgeNorm (e : (⟨S2x320000, .i32⟩ : BufTy).Contents (Elt F)) (w : (⟨S320000, .f32⟩ : BufTy).Contents (Elt F)) : (⟨S370000, .f32⟩ : BufTy).Contents (Elt F) :=
  mulf (mulf (Host.gather gather_S50000_S370000x1_S370000_n_0_n_n_0_1_1 (invSqrtDegree e w) (broadcastInDim S370000x1 ![0] bcast_S370000_S370000x1_0 (wrapped (sources e)))) (weights w)) (Host.gather gather_S50000_S370000x1_S370000_n_0_n_n_0_1_1 (invSqrtDegree e w) (broadcastInDim S370000x1 ![0] bcast_S370000_S370000x1_0 (wrapped (targets e))))

/-- The aggregated messages from given endpoints and coefficients: at each node the sum, over the edges that point
    at it, of the source's row of `h` times the edge's coefficient. -/
def aggregateFrom (h : (⟨S50000x256, .f32⟩ : BufTy).Contents (Elt F)) (src tgt : (⟨S370000, .i32⟩ : BufTy).Contents (Elt F)) (coef : (⟨S370000, .f32⟩ : BufTy).Contents (Elt F)) : (⟨S50000x256, .f32⟩ : BufTy).Contents (Elt F) :=
  Host.scatterAdd scatter_S50000x256_S370000x1_S370000x256_1_0_0_1 (broadcastInDim S50000x256 ![] bcast_S_S50000x256 (constant S_ .f32 0x00000000#32)) (broadcastInDim S370000x1 ![0] bcast_S370000_S370000x1_0 tgt) (mulf (Host.gather gather_S50000x256_S370000x1_S370000x256_1_0_n_n_0_1_1256 h (broadcastInDim S370000x1 ![0] bcast_S370000_S370000x1_0 (wrapped src))) (broadcastInDim S370000x256 ![0, 1] bcast_S370000x1_S370000x256_0_1 (broadcastInDim S370000x1 ![0] bcast_S370000_S370000x1_0 coef)))

/-- The aggregated messages of the graph. -/
def aggregate (h : (⟨S50000x256, .f32⟩ : BufTy).Contents (Elt F)) (e : (⟨S2x320000, .i32⟩ : BufTy).Contents (Elt F)) (w : (⟨S320000, .f32⟩ : BufTy).Contents (Elt F)) : (⟨S50000x256, .f32⟩ : BufTy).Contents (Elt F) :=
  aggregateFrom h (sources e) (targets e) (edgeNorm e w)

end Cert.ReferenceIdeal.Messages

end
-- ==== Proof.Spec.lean ====
/-
  What the two programs compute, as functions of whole arrays read index by index over the extended reals.

  A graph-convolution layer over 50000 nodes with 256 features: the node features `x` are first multiplied by the
  transposed weight matrix (`linear`: entry (r, q) is the sum over `k` of `x (r, k) · w (k, q)`), the products are
  gathered along the edges, scaled by the symmetric degree normalisation and scatter-added per target node (one
  and the same function of the products in both programs), and finally the bias is added, the rectifier applied and the input added back
  (`biasReluResidual`: entry (r, q) is `x (r, q) + max (agg (r, q) + b (0, q)) 0`).
-/
import Idealize.ShloMosaic.PureOps.Ideal
import Idealize.ShloMosaic.Lib.ValueIdx

noncomputable section

namespace Cert.GraphConv

open Idealize.ShloMosaic

/-- Node features: 50000 rows of 256. -/
abbrev Nodes : Shape := ⟨2, ![50000, 256]⟩
/-- A square 256 × 256 matrix. -/
abbrev Square : Shape := ⟨2, ![256, 256]⟩
/-- One row of 256, kept as a 1 × 256 matrix. -/
abbrev OneRow : Shape := ⟨2, ![1, 256]⟩

/-- Entry `k` of the row of `i`. -/
abbrev alongRow (i : Nodes.Idx) (k : Fin 256) : Nodes.Idx := fun a => match a with
  | ⟨0, _⟩ => ⟨(i 0).val, (i 0).isLt⟩
  | ⟨1, _⟩ => ⟨k.val, k.isLt⟩

/-- Entry `k` of the column of `i` in a square matrix. -/
abbrev downColumn (i : Nodes.Idx) (k : Fin 256) : Square.Idx := fun a => match a with
  | ⟨0, _⟩ => ⟨k.val, k.isLt⟩
  | ⟨1, _⟩ => ⟨(i 1).val, (i 1).isLt⟩

/-- The column of `i` in the one row. -/
abbrev inOneRow (i : Nodes.Idx) : OneRow.Idx := fun a => match a with
  | ⟨0, _⟩ => ⟨0, Nat.one_pos⟩
  | ⟨1, _⟩ => ⟨(i 1).val, (i 1).isLt⟩

/-- The matrix product `x · w`: entry (r, q) is the sum over `k` of `x (r, k) · w (k, q)`. -/
def linear (x : FVec Ideal Nodes .f32) (w : FVec Ideal Square .f32) : FVec Ideal Nodes .f32 :=
  fun i => ∑ k : Fin 256, x (alongRow i k) * w (downColumn i k)

/-- Bias, rectifier and residual: entry (r, q) is `x (r, q) + max (agg (r, q) + b (0, q)) 0`, the zero kept as the
    float pattern both programs write. -/
def biasReluResidual (agg x : FVec Ideal Nodes .f32) (b : FVec Ideal OneRow .f32) : FVec Ideal Nodes .f32 :=
  fun i => x i + max (agg i + b (inOneRow i)) (Ideal.ofBits .f32 0x00000000#32)

end Cert.GraphConv

end
-- ==== Proof.LinearBlocks.lean ====
/-
  The first region, read as a value at the extended reals: after its 25 grid points the product array holds
  `linear` of the two arrays the region finds under its input windows.

  Point `t` loads rows `2000·t … 2000·t + 1999` of the left array and the whole square right array, and stores the
  256-column products of those rows: entry (p, q) of the stored block is the sum over `k` of
  `left (2000·t + p, k) · right (k, q)` (a change of float format is the identity here, and the accumulator the
  products are added into is zero). The 25 blocks tile the 50000 rows, so the whole array is the product.
-/
import proofs.«105115_j62921270886996_1_alg».proof.Proof.Gen.KernelIdeal.Frame
import proofs.«105115_j62921270886996_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.LinearBlocks

open Cert.KernelIdeal Cert.KernelIdeal.Gen Cert.GraphConv
open Idealize.ShloMosaic Idealize.ShloMosaic.TcCoe Idealize.SL.Sem
open Idealize.ShloMosaic.Pipeline (Dat)

theorem zeroOffsets : (![0, 0] : Fin 2 → Nat) = fun _ => 0 := funext fun a => by fin_cases a <;> rfl

/-! ## The stored block at an index -/

/-- Entry `k` of the row of `y` inside a block of 2000 rows. -/
abbrev blockRow (y : S2000x256.Idx) (k : Fin 256) : S2000x256.Idx := fun a => match a with
  | ⟨0, _⟩ => ⟨(y 0).val, (y 0).isLt⟩
  | ⟨1, _⟩ => ⟨k.val, k.isLt⟩

/-- Entry `k` of the column of `y` in the square matrix. -/
abbrev blockColumn (y : S2000x256.Idx) (k : Fin 256) : S256x256.Idx := fun a => match a with
  | ⟨0, _⟩ => ⟨k.val, k.isLt⟩
  | ⟨1, _⟩ => ⟨(y 1).val, (y 1).isLt⟩

/-- The left operand's index at output `y` and contraction position `q`: row of `y`, … -/
theorem lhs_axis0 (y : S2000x256.Idx) (q : dot_S2000x256_S256x256_S2000x256_1_0_0_1_n_n.contr.Idx) :
    (dot_S2000x256_S256x256_S2000x256_1_0_0_1_n_n.lhsIdx y q 0).val = (y 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- … column `q`. -/
theorem lhs_axis1 (y : S2000x256.Idx) (q : dot_S2000x256_S256x256_S2000x256_1_0_0_1_n_n.contr.Idx) :
    (dot_S2000x256_S256x256_S2000x256_1_0_0_1_n_n.lhsIdx y q 1).val = (q ⟨0, by decide⟩).val :=
  dot_S2000x256_S256x256_S2000x256_1_0_0_1_n_n.lhsIdx_val_of_single rfl y q
/-- The right operand's index: row `q`, … -/
theorem rhs_axis0 (y : S2000x256.Idx) (q : dot_S2000x256_S256x256_S2000x256_1_0_0_1_n_n.contr.Idx) :
    (dot_S2000x256_S256x256_S2000x256_1_0_0_1_n_n.rhsIdx y q 0).val = (q ⟨0, by decide⟩).val :=
  dot_S2000x256_S256x256_S2000x256_1_0_0_1_n_n.rhsIdx_val_of_single rfl y q
/-- … column of `y`. -/
theorem rhs_axis1 (y : S2000x256.Idx) (q : dot_S2000x256_S256x256_S2000x256_1_0_0_1_n_n.contr.Idx) :
    (dot_S2000x256_S256x256_S2000x256_1_0_0_1_n_n.rhsIdx y q 1).val = (y 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- What the body stores, at an index: the sum over `k` of the loaded rows' entry (p, k) times the loaded square
    matrix's entry (k, q). -/
theorem stored_apply (x0 : Vec Ideal S2000x256 .f32) (x1 : Vec Ideal S256x256 .f32) (y : S2000x256.Idx) :
    k0_pay1 (F := Ideal) x0 x1 y = ∑ k : Fin 256, x0 (blockRow y k) * x1 (blockColumn y k) := by
  unfold k0_pay1
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx y ((ValueIdx.contrEquiv1 dot_S2000x256_S256x256_S2000x256_1_0_0_1_n_n 256 rfl rfl).symm k) = blockRow y k := funext fun a => Fin.ext (by
    match a with
    | ⟨0, _⟩ => exact lhs_axis0 _ _
    | ⟨1, _⟩ => exact (lhs_axis1 _ _).trans hk)
  have er : dot_S2000x256_S256x256_S2000x256_1_0_0_1_n_n.rhsIdx y ((ValueIdx.contrEquiv1 dot_S2000x256_S256x256_S2000x256_1_0_0_1_n_n 256 rfl rfl).symm k) = blockColumn y k := funext fun a => Fin.ext (by
    match a with
    | ⟨0, _⟩ => exact (rhs_axis0 _ _).trans hk
    | ⟨1, _⟩ => exact rhs_axis1 _ _)
  rw [el, er, shapeCast_self]
  rfl

/-! ## The blocks -/

/-- The printed index maps over the grid: the row windows sit at block row `t`, block column 0; the square matrix's
    window at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The left window's block at point `t` is rows `2000·t …` of the left array. -/
theorem left_block_apply (c : Dev nD) (t : Fin cfg0.N) (y : S2000x256.Idx) (j : Nodes.Idx)
    (h0 : (j 0).val = 2000 * t.val + (y 0).val) (h1 : (j 1).val = (y 1).val) :
    (iblk0 V c 0 t : Vec Ideal S2000x256 .f32) y = (V c main_arg0 : FVec Ideal Nodes .f32) j := by
  obtain ⟨e0, e1, -⟩ := index_facts t
  unfold iblk0
  rw [View.read_apply]
  show V c main_arg0 _ = V c main_arg0 _
  refine congrArg (V c main_arg0) ?_
  funext a
  apply Fin.ext
  match a with
  | ⟨0, _⟩ => show win0_0.index t 0 * 2000 + 1 * (y 0).val = (j 0).val; rw [e0, h0]; omega
  | ⟨1, _⟩ => show win0_0.index t 1 * 256 + 1 * (y 1).val = (j 1).val; rw [e1, h1]; omega

/-- The right window's block at every point is the whole square array. -/
theorem right_block_apply (c : Dev nD) (t : Fin cfg0.N) (y : S256x256.Idx) :
    (iblk0 V c 1 t : Vec Ideal S256x256 .f32) y = (V c main_v32 : FVec Ideal Square .f32) y := by
  obtain ⟨-, -, e0, e1, -⟩ := index_facts t
  unfold iblk0
  rw [View.read_apply]
  show V c main_v32 _ = V c main_v32 _
  refine congrArg (V c main_v32) ?_
  funext a
  apply Fin.ext
  match a with
  | ⟨0, _⟩ => show win0_1.index t 0 * 256 + 1 * (y 0).val = (y 0).val; rw [e0]; omega
  | ⟨1, _⟩ => show win0_1.index t 1 * 256 + 1 * (y 1).val = (y 1).val; rw [e1]; omega

/-- WHAT POINT `t` WRITES BACK is block `t` of the product of the two arrays as the region finds them. -/
theorem flushed_eq (c : Dev nD) (t : Fin cfg0.N) :
    (dat0 V c).flushed 2 t = ((cfg0.win 2).blk t).view.read (Elt Ideal) (linear (V c main_arg0) (V c main_v32)) := by
  show (cfg0.win 2).cut (grid0.coords t) ((dat0 V c).after 2 t) = _
  rw [after0_2]
  unfold out0_2
  rw [View.canon_unit_zero zeroOffsets]
  simp only [View.ld_unit_zero (S := S2000x256) zeroOffsets, View.ld_unit_zero (S := S256x256) zeroOffsets]
  obtain ⟨-, -, -, -, e0, e1⟩ := index_facts t
  funext y
  show k0_pay1 (F := Ideal) (iblk0 V c 0 t) (iblk0 V c 1 t) y = linear (V c main_arg0) (V c main_v32) (((cfg0.win 2).blk t).view.emb y)
  refine (stored_apply (iblk0 V c 0 t) (iblk0 V c 1 t) y).trans ?_
  unfold linear
  refine Finset.sum_congr rfl fun k _ => ?_
  have hl := left_block_apply V c t (blockRow y k) (alongRow (((cfg0.win 2).blk t).view.emb y) k)
    (by show win0_2.index t 0 * 2000 + 1 * (y 0).val = 2000 * t.val + (y 0).val; rw [e0]; omega) rfl
  have hr := right_block_apply V c t (blockColumn y k)
  have hc : blockColumn y k = downColumn (((cfg0.win 2).blk t).view.emb y) k := by
    funext a
    apply Fin.ext
    match a with
    | ⟨0, _⟩ => rfl
    | ⟨1, _⟩ => show (y 1).val = win0_2.index t 1 * 256 + 1 * (y 1).val; rw [e1]; omega
  rw [hl, hr, hc]

/-- An index of the product array is in point `t`'s block iff each coordinate is in the block's range on its axis. -/
theorem mem_block (t : Fin cfg0.N) (i : Nodes.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v33).slice (win0_2.rect t)).set ↔ _
  rw [View.set_slice_whole, Rect.mem_set_unit]
  exact Iff.rfl

/-- Row `r` lies in the block of point `r / 2000`. -/
theorem covered (i : Nodes.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, e0, e1⟩ := index_facts t
  refine ⟨t, flush0_2 t, ?_⟩
  rw [mem_block]
  intro a
  match a with
  | ⟨0, _⟩ => show win0_2.index t 0 * 2000 ≤ (i 0).val ∧ (i 0).val < win0_2.index t 0 * 2000 + 2000; rw [e0]; show (i 0).val / 2000 * 2000 ≤ (i 0).val ∧ (i 0).val < (i 0).val / 2000 * 2000 + 2000; omega
  | ⟨1, _⟩ => show win0_2.index t 1 * 256 ≤ (i 1).val ∧ (i 1).val < win0_2.index t 1 * 256 + 256; rw [e1]; omega

/-- THE PRODUCT ARRAY after the region: `linear` of the two arrays the region found. -/
theorem product_array (c : Dev nD) : (dat0 V c).arrAt 2 cfg0.N = linear (V c main_arg0) (V c main_v32) :=
  (dat0 V c).arrAt_eq_of_cover 2 (linear (V c main_arg0) (V c main_v32)) (fun t _ => flushed_eq V c t) covered

end Cert.KernelIdeal.LinearBlocks

end
-- ==== Proof.ResidualBlocks.lean ====
/-
  The second region, read as a value at the extended reals: after its 25 grid points the result array holds
  `biasReluResidual` of the three arrays the region finds under its input windows.

  Point `t` loads rows `2000·t … 2000·t + 1999` of the aggregated messages and of the node features and the one bias
  row, and stores, entry by entry, `x (p, q) + max (agg (p, q) + b (0, q)) 0`. The 25 blocks tile the 50000 rows.
-/
import proofs.«105115_j62921270886996_1_alg».proof.Proof.Gen.KernelIdeal.Frame
import proofs.«105115_j62921270886996_1_alg».proof.Proof.Spec
import Idealize.ShloMosaic.Lib.Pipeline.Value
import Idealize.ShloMosaic.Lib.ValueIdx

set_option maxRecDepth 16384

noncomputable section

namespace Cert.KernelIdeal.ResidualBlocks

open Cert.KernelIdeal Cert.KernelIdeal.Gen Cert.GraphConv
open Idealize.ShloMosaic Idealize.ShloMosaic.TcCoe Idealize.SL.Sem
open Idealize.ShloMosaic.Pipeline (Dat)

theorem zeroOffsets : (![0, 0] : Fin 2 → Nat) = fun _ => 0 := funext fun a => by fin_cases a <;> rfl

/-! ## The stored block at an index -/

/-- The column of `y` in the one bias row. -/
abbrev blockBias (y : S2000x256.Idx) : S1x256.Idx := fun a => match a with
  | ⟨0, _⟩ => ⟨0, Nat.one_pos⟩
  | ⟨1, _⟩ => ⟨(y 1).val, (y 1).isLt⟩

/-- What the body stores, at an index: the feature entry plus the rectified sum of the aggregated entry and the
    bias of its column (the bias row is broadcast over the block's rows). -/
theorem stored_apply (x0 : Vec Ideal S2000x256 .f32) (x2 : Vec Ideal S1x256 .f32) (x8 : Vec Ideal S2000x256 .f32) (y : S2000x256.Idx) :
    k1_pay1 (F := Ideal) x0 x2 x8 y = x8 y + max (x0 y + x2 (blockBias y)) (Ideal.ofBits .f32 0x00000000#32) := by
  have hb : broadcastTo S2000x256 x2 broadcasts_S1x256_S2000x256 y = x2 (blockBias y) :=
    broadcastTo_apply x2 broadcasts_S1x256_S2000x256 y (blockBias y) (fun ax => match ax with
      | ⟨0, _⟩ => rfl
      | ⟨1, _⟩ => rfl)
  unfold k1_pay1
  simp only [shapeCast_self]
  exact congrArg (fun z => x8 y + max (x0 y + z) (Ideal.ofBits .f32 0x00000000#32)) hb

/-! ## The blocks -/

/-- The printed index maps over the grid: the three row windows sit at block row `t`, block column 0; the bias row's
    window at block (0, 0). -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The aggregated messages' block at point `t` is rows `2000·t …` of their array. -/
theorem agg_block_apply (c : Dev nD) (t : Fin cfg1.N) (y : S2000x256.Idx) (j : Nodes.Idx)
    (h0 : (j 0).val = 2000 * t.val + (y 0).val) (h1 : (j 1).val = (y 1).val) :
    (iblk1 V c 0 t : Vec Ideal S2000x256 .f32) y = (V c main_v46 : FVec Ideal Nodes .f32) j := by
  obtain ⟨e0, e1, -⟩ := index_facts t
  unfold iblk1
  rw [View.read_apply]
  show V c main_v46 _ = V c main_v46 _
  refine congrArg (V c main_v46) ?_
  funext a
  apply Fin.ext
  match a with
  | ⟨0, _⟩ => show win1_0.index t 0 * 2000 + 1 * (y 0).val = (j 0).val; rw [e0, h0]; omega
  | ⟨1, _⟩ => show win1_0.index t 1 * 256 + 1 * (y 1).val = (j 1).val; rw [e1, h1]; omega

/-- The node features' block at point `t` is rows `2000·t …` of the features. -/
theorem feature_block_apply (c : Dev nD) (t : Fin cfg1.N) (y : S2000x256.Idx) (j : Nodes.Idx)
    (h0 : (j 0).val = 2000 * t.val + (y 0).val) (h1 : (j 1).val = (y 1).val) :
    (iblk1 V c 1 t : Vec Ideal S2000x256 .f32) y = (V c main_arg0 : FVec Ideal Nodes .f32) j := by
  obtain ⟨-, -, e0, e1, -⟩ := index_facts t
  unfold iblk1
  rw [View.read_apply]
  show V c main_arg0 _ = V c main_arg0 _
  refine congrArg (V c main_arg0) ?_
  funext a
  apply Fin.ext
  match a with
  | ⟨0, _⟩ => show win1_1.index t 0 * 2000 + 1 * (y 0).val = (j 0).val; rw [e0, h0]; omega
  | ⟨1, _⟩ => show win1_1.index t 1 * 256 + 1 * (y 1).val = (j 1).val; rw [e1, h1]; omega

/-- The bias window's block at every point is the whole bias row. -/
theorem bias_block_apply (c : Dev nD) (t : Fin cfg1.N) (z : S1x256.Idx) :
    (iblk1 V c 2 t : Vec Ideal S1x256 .f32) z = (V c main_v47 : FVec Ideal OneRow .f32) z := by
  obtain ⟨-, -, -, -, e0, e1, -⟩ := index_facts t
  unfold iblk1
  rw [View.read_apply]
  show V c main_v47 _ = V c main_v47 _
  refine congrArg (V c main_v47) ?_
  funext a
  apply Fin.ext
  match a with
  | ⟨0, _⟩ => show win1_2.index t 0 * 1 + 1 * (z 0).val = (z 0).val; rw [e0]; omega
  | ⟨1, _⟩ => show win1_2.index t 1 * 256 + 1 * (z 1).val = (z 1).val; rw [e1]; omega

/-- WHAT POINT `t` WRITES BACK is block `t` of `biasReluResidual` of the three arrays as the region finds them. -/
theorem flushed_eq (c : Dev nD) (t : Fin cfg1.N) :
    (dat1 V c).flushed 3 t = ((cfg1.win 3).blk t).view.read (Elt Ideal) (biasReluResidual (V c main_v46) (V c main_arg0) (V c main_v47)) := by
  show (cfg1.win 3).cut (grid1.coords t) ((dat1 V c).after 3 t) = _
  rw [after1_3]
  unfold out1_3
  rw [View.canon_unit_zero zeroOffsets]
  simp only [View.ld_unit_zero (S := S2000x256) zeroOffsets, View.ld_unit_zero (S := S1x256) zeroOffsets]
  obtain ⟨-, -, -, -, -, -, e0, e1⟩ := index_facts t
  funext y
  show k1_pay1 (F := Ideal) (iblk1 V c 0 t) (iblk1 V c 2 t) (iblk1 V c 1 t) y = biasReluResidual (V c main_v46) (V c main_arg0) (V c main_v47) (((cfg1.win 3).blk t).view.emb y)
  refine (stored_apply (iblk1 V c 0 t) (iblk1 V c 2 t) (iblk1 V c 1 t) y).trans ?_
  unfold biasReluResidual
  have hj0 : ((((cfg1.win 3).blk t).view.emb y) 0).val = 2000 * t.val + (y 0).val := by
    show win1_3.index t 0 * 2000 + 1 * (y 0).val = 2000 * t.val + (y 0).val; rw [e0]; omega
  have hj1 : ((((cfg1.win 3).blk t).view.emb y) 1).val = (y 1).val := by
    show win1_3.index t 1 * 256 + 1 * (y 1).val = (y 1).val; rw [e1]; omega
  have hc : blockBias y = inOneRow (((cfg1.win 3).blk t).view.emb y) := by
    funext a
    apply Fin.ext
    match a with
    | ⟨0, _⟩ => rfl
    | ⟨1, _⟩ => exact hj1.symm
  rw [agg_block_apply V c t y _ hj0 hj1, feature_block_apply V c t y _ hj0 hj1, bias_block_apply V c t (blockBias y), hc]

/-- An index of the result array is in point `t`'s block iff each coordinate is in the block's range on its axis. -/
theorem mem_block (t : Fin cfg1.N) (i : Nodes.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v48).slice (win1_3.rect t)).set ↔ _
  rw [View.set_slice_whole, Rect.mem_set_unit]
  exact Iff.rfl

/-- Row `r` lies in the block of point `r / 2000`. -/
theorem covered (i : Nodes.Idx) : ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  obtain ⟨-, -, -, -, -, -, e0, e1⟩ := index_facts t
  refine ⟨t, flush1_3 t, ?_⟩
  rw [mem_block]
  intro a
  match a with
  | ⟨0, _⟩ => show win1_3.index t 0 * 2000 ≤ (i 0).val ∧ (i 0).val < win1_3.index t 0 * 2000 + 2000; rw [e0]; show (i 0).val / 2000 * 2000 ≤ (i 0).val ∧ (i 0).val < (i 0).val / 2000 * 2000 + 2000; omega
  | ⟨1, _⟩ => show win1_3.index t 1 * 256 ≤ (i 1).val ∧ (i 1).val < win1_3.index t 1 * 256 + 256; rw [e1]; omega

/-- THE RESULT ARRAY after the region: `biasReluResidual` of the three arrays the region found. -/
theorem result_array (c : Dev nD) :
    (dat1 V c).arrAt 3 cfg1.N = biasReluResidual (V c main_v46) (V c main_arg0) (V c main_v47) :=
  (dat1 V c).arrAt_eq_of_cover 3 (biasReluResidual (V c main_v46) (V c main_arg0) (V c main_v47)) (fun t _ => flushed_eq V c t) covered

end Cert.KernelIdeal.ResidualBlocks

end
-- ==== Proof.KernelValue.lean ====
/-
  The idealized kernel's result array as one function of its arguments.

  Its program is: the shared preparation of the graph (endpoints with self-loops, weights, degree normalisation and
  the edge coefficients) and the transpose of the weight matrix; the first region, which leaves the product of the
  features with the transposed weights; the shared gather, scaling and scatter-add, which leaves the aggregated
  messages, and the bias recast as one row; the second region, which adds the bias, rectifies and adds the features
  back. Reading each buffer at each boundary in turn gives
  `biasReluResidual (aggregate (linear x wᵀ) edges weights) x bias`.
-/
import proofs.«105115_j62921270886996_1_alg».proof.Proof.Gen.KernelIdeal.Frame
import proofs.«105115_j62921270886996_1_alg».proof.Proof.Messages
import proofs.«105115_j62921270886996_1_alg».proof.Proof.LinearBlocks
import proofs.«105115_j62921270886996_1_alg».proof.Proof.ResidualBlocks
import Idealize.ShloMosaic.Lib.StableHlo.Run

set_option maxRecDepth 16384

noncomputable section

namespace Cert.KernelIdeal.Value

open Cert.KernelIdeal Cert.KernelIdeal.Gen Cert.GraphConv
open Idealize.ShloMosaic Idealize.ShloMosaic.TcCoe Idealize.SL.Sem Idealize.ShloMosaic.StableHlo
open Cert.ReferenceIdeal (Messages.sources Messages.targets Messages.weights Messages.edgeNorm Messages.aggregateFrom Messages.aggregate)

variable {F : FTy → Type} [FloatOps F]
variable (m : (ℓ : Loc nD τ sig) → Buf (Elt F) ℓ) (ρ : Dev nD → PrngReg)

/-! ## Before the first region -/

set_option maxHeartbeats 4000000 in
/-- The sources with self-loops, when the first region is entered. -/
theorem sources_entry (c : Dev nD) :
    W3 m ρ c (Proc.devRef .tc main_v3) = Messages.sources (m ((c : Thread nD τ).loc main_arg1)) := by
  show StableHlo.after hostOps0_2 (StableHlo.after hostOps0_1 (StableHlo.after hostOps0 (W0 m ρ c))) (Proc.devRef .tc main_v3) = _
  after_results_simp
  rfl

set_option maxHeartbeats 4000000 in
/-- The targets with self-loops, when the first region is entered. -/
theorem targets_entry (c : Dev nD) :
    W3 m ρ c (Proc.devRef .tc main_v6) = Messages.targets (m ((c : Thread nD τ).loc main_arg1)) := by
  show StableHlo.after hostOps0_2 (StableHlo.after hostOps0_1 (StableHlo.after hostOps0 (W0 m ρ c))) (Proc.devRef .tc main_v6) = _
  after_results_simp
  rfl

set_option maxHeartbeats 4000000 in
/-- The edge coefficients, when the first region is entered. -/
theorem edgeNorm_entry (c : Dev nD) :
    W3 m ρ c (Proc.devRef .tc main_v31) = Messages.edgeNorm (m ((c : Thread nD τ).loc main_arg1)) (m ((c : Thread nD τ).loc main_arg2)) := by
  show StableHlo.after hostOps0_2 (StableHlo.after hostOps0_1 (StableHlo.after hostOps0 (W0 m ρ c))) (Proc.devRef .tc main_v31) = _
  after_results_simp
  rfl

set_option maxHeartbeats 4000000 in
/-- The transposed weight matrix, when the first region is entered. -/
theorem weightT_entry (c : Dev nD) :
    W3 m ρ c (Proc.devRef .tc main_v32) = transpose S256x256 [1, 0] (m ((c : Thread nD τ).loc main_arg3)) transposes_S256x256_S256x256_1_0 := by
  show StableHlo.after hostOps0_2 (StableHlo.after hostOps0_1 (StableHlo.after hostOps0 (W0 m ρ c))) (Proc.devRef .tc main_v32) = _
  after_results_simp

set_option maxHeartbeats 4000000 in
/-- The features are untouched when the first region is entered. -/
theorem features_entry (c : Dev nD) :
    W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp

set_option maxHeartbeats 4000000 in
/-- The bias is untouched when the first region is entered. -/
theorem bias_entry (c : Dev nD) :
    W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp

/-! ## Between the regions -/

set_option maxHeartbeats 4000000 in
/-- The aggregated messages when the second region is entered, from the first region's exit contents. -/
theorem aggregate_entry (c : Dev nD) :
    W5 m ρ c (Proc.devRef .tc main_v46) = Messages.aggregateFrom (W4 m ρ c (Proc.devRef .tc main_v33)) (W4 m ρ c (Proc.devRef .tc main_v3)) (W4 m ρ c (Proc.devRef .tc main_v6)) (W4 m ρ c (Proc.devRef .tc main_v31)) := by
  show StableHlo.after hostOps1 (W4 m ρ c) (Proc.devRef .tc main_v46) = _
  after_results_simp
  rfl

set_option maxHeartbeats 4000000 in
/-- The features are untouched between the regions. -/
theorem features_between (c : Dev nD) :
    W5 m ρ c (Proc.devRef .tc main_arg0) = W4 m ρ c (Proc.devRef .tc main_arg0) := by
  show StableHlo.after hostOps1 (W4 m ρ c) (Proc.devRef .tc main_arg0) = _
  after_results_simp

set_option maxHeartbeats 4000000 in
/-- The bias recast as one row, when the second region is entered. -/
theorem biasRow_entry (c : Dev nD) :
    W5 m ρ c (Proc.devRef .tc main_v47) = shapeCast S1x256 (W4 m ρ c (Proc.devRef .tc main_arg4)) shapeCasts_S256_S1x256 := by
  show StableHlo.after hostOps1 (W4 m ρ c) (Proc.devRef .tc main_v47) = _
  after_results_simp
  rfl

/-- The first region leaves the features as it found them. -/
theorem features_exit (c : Dev nD) : W4 m ρ c (Proc.devRef .tc main_arg0) = W3 m ρ c (Proc.devRef .tc main_arg0) :=
  (W4_arr m ρ c 0).trans (((dat0 (V3 m ρ) c).arrAt_in 0 rfl _).trans (A_eq0 (V3 m ρ) c 0))

end Cert.KernelIdeal.Value

namespace Cert.KernelIdeal.Value

open Cert.KernelIdeal Cert.KernelIdeal.Gen Cert.GraphConv
open Idealize.ShloMosaic Idealize.ShloMosaic.TcCoe Idealize.SL.Sem Idealize.ShloMosaic.StableHlo
open Cert.ReferenceIdeal (Messages.sources Messages.targets Messages.weights Messages.edgeNorm Messages.aggregateFrom Messages.aggregate)

variable (m : (ℓ : Loc nD τ sig) → Buf (Elt Ideal) ℓ) (ρ : Dev nD → PrngReg)

/-- The first region leaves the product of the features with the transposed weights. -/
theorem product_exit (c : Dev nD) :
    W4 m ρ c (Proc.devRef .tc main_v33) = linear (W3 m ρ c (Proc.devRef .tc main_arg0)) (W3 m ρ c (Proc.devRef .tc main_v32)) :=
  (W4_arr m ρ c 2).trans (LinearBlocks.product_array (V3 m ρ) c)

/-- THE RESULT ARRAY at the last boundary, as a function of the arguments. -/
theorem result_value (c : Dev nD) :
    W6 m ρ c (Proc.devRef .tc main_v48)
      = biasReluResidual
          (Messages.aggregate (linear (m ((c : Thread nD τ).loc main_arg0)) (transpose S256x256 [1, 0] (m ((c : Thread nD τ).loc main_arg3)) transposes_S256x256_S256x256_1_0))
            (m ((c : Thread nD τ).loc main_arg1)) (m ((c : Thread nD τ).loc main_arg2)))
          (m ((c : Thread nD τ).loc main_arg0))
          (shapeCast S1x256 (m ((c : Thread nD τ).loc main_arg4)) shapeCasts_S256_S1x256) := by
  have h6 : W6 m ρ c (Proc.devRef .tc main_v48) = biasReluResidual (W5 m ρ c (Proc.devRef .tc main_v46)) (W5 m ρ c (Proc.devRef .tc main_arg0)) (W5 m ρ c (Proc.devRef .tc main_v47)) :=
    (W6_arr m ρ c 3).trans (ResidualBlocks.result_array (V5 m ρ) c)
  rw [h6, aggregate_entry, features_between, biasRow_entry, product_exit, features_exit,
    W4_of_ne m ρ c main_v3 (by decide), W4_of_ne m ρ c main_v6 (by decide), W4_of_ne m ρ c main_v31 (by decide),
    W4_of_ne m ρ c main_arg4 (by decide),
    sources_entry, targets_entry, edgeNorm_entry, weightT_entry, features_entry, bias_entry]
  rfl

end Cert.KernelIdeal.Value

end
-- ==== Proof.ReferenceValue.lean ====
/-
  The idealized reference's result as the same function of its arguments.

  Its program applies the shared preparation and aggregation to the whole-array product `x · wᵀ`, adds the bias
  broadcast over the rows, rectifies against zero and adds the features back. Three readings join it to the
  specification: the host's product of a 50000 × 256 with a 256 × 256 matrix is `linear`; the bias broadcast first to
  one row and then over all rows is, at (r, q), the bias recast as one row at (0, q); the broadcast zero is zero
  everywhere.
-/
import proofs.«105115_j62921270886996_1_alg».proof.Proof.Gen.ReferenceIdeal.Run
import proofs.«105115_j62921270886996_1_alg».proof.Proof.Gen.ReferenceIdeal.Read
import proofs.«105115_j62921270886996_1_alg».proof.Proof.Messages
import proofs.«105115_j62921270886996_1_alg».proof.Proof.Spec
import Idealize.ShloMosaic.Lib.Pipeline.Value
import Idealize.ShloMosaic.Lib.ValueIdx
import Idealize.ShloMosaic.Lib.ValueLayout

set_option maxRecDepth 16384

noncomputable section

namespace Cert.ReferenceIdeal.RefValue

open Cert.ReferenceIdeal Cert.ReferenceIdeal.Gen Cert.ReferenceIdeal.Value Cert.GraphConv
open Idealize.ShloMosaic Idealize.ShloMosaic.TcCoe Idealize.SL.Sem

/-- The host's product with the transposed weights, entry by entry, is `linear`. -/
theorem product_eq_linear (x : FVec Ideal S50000x256 .f32) (w : FVec Ideal S256x256 .f32) :
    Host.dotGeneral dot_S50000x256_S256x256_S50000x256_1_0_0_1_n_n none x (transpose S256x256 [1, 0] w transposes_S256x256_S256x256_1_0)
      = linear x (transpose S256x256 [1, 0] w transposes_S256x256_S256x256_1_0) := by
  funext i
  refine (Read.val_main_v33_apply x w i).trans ?_
  unfold linear
  refine Finset.sum_congr rfl fun k _ => ?_
  have hl : Read.lidx_main_v33 i k = alongRow i k := funext fun a => match a with
    | ⟨0, _⟩ => rfl
    | ⟨1, _⟩ => rfl
  have hr : Read.ridx_main_v33 i k = downColumn i k := funext fun a => match a with
    | ⟨0, _⟩ => rfl
    | ⟨1, _⟩ => rfl
  rw [hl, hr]
  rfl

/-- The bias broadcast to one row and then over all rows reads, at (r, q), the bias recast as one row at (0, q). -/
theorem bias_apply (b : FVec Ideal S256 .f32) (h : S256.ShapeCasts S1x256) (i : S50000x256.Idx) :
    broadcastInDim S50000x256 ![0, 1] bcast_S1x256_S50000x256_0_1 (broadcastInDim S1x256 ![1] bcast_S256_S1x256_1 b) i
      = shapeCast S1x256 b h (inOneRow i) := by
  rw [broadcastInDim_apply (s := S1x256) (t := S50000x256) ![0, 1] bcast_S1x256_S50000x256_0_1 _ i (inOneRow i) (fun a => match a with
    | ⟨0, _⟩ => rfl
    | ⟨1, _⟩ => rfl)]
  rw [broadcastInDim_apply (s := S256) (t := S1x256) ![1] bcast_S256_S1x256_1 b (inOneRow i) (ValueIdx.ix1 (⟨(i 1).val, (i 1).isLt⟩ : Fin 256)) (fun a => match a with
    | ⟨0, _⟩ => rfl)]
  have e : inOneRow i = ValueIdx.ix2 (0 : Fin 1) (⟨(i 1).val, (i 1).isLt⟩ : Fin 256) := funext fun a => match a with
    | ⟨0, _⟩ => rfl
    | ⟨1, _⟩ => rfl
  rw [e]
  exact (ValueIdx.shapeCast_a_1a_apply b h 0 _).symm

/-- The broadcast zero is the zero pattern everywhere. -/
theorem zero_apply (i : S50000x256.Idx) :
    broadcastInDim S50000x256 ![] bcast_S_S50000x256 (constant (F := Ideal) S_ .f32 0x00000000#32) i = Ideal.ofBits .f32 0x00000000#32 :=
  broadcastInDim_apply (s := S_) (t := S50000x256) ![] bcast_S_S50000x256 (constant (F := Ideal) S_ .f32 0x00000000#32) i ValueIdx.ix0 (fun a => a.elim0)

variable (m : (ℓ : Loc nD τ sig) → Buf (Elt Ideal) ℓ)

set_option maxHeartbeats 4000000 in
/-- The run's result term is the shared stage applied to the host's product, then bias, rectifier and residual,
    each as a whole-array operation. -/
theorem result_flat (c : Dev nD) :
    res_main_v51 (F := Ideal) m c
      = addf (m ((c.tc : Thread nD τ).loc main_arg0))
          (maximumf
            (addf
              (Messages.aggregate
                (Host.dotGeneral (φ₁ := .f32) (φ₂ := .f32) dot_S50000x256_S256x256_S50000x256_1_0_0_1_n_n none (m ((c.tc : Thread nD τ).loc main_arg0)) (transpose S256x256 [1, 0] (m ((c.tc : Thread nD τ).loc main_arg3)) transposes_S256x256_S256x256_1_0))
                (m ((c.tc : Thread nD τ).loc main_arg1)) (m ((c.tc : Thread nD τ).loc main_arg2)))
              (broadcastInDim S50000x256 ![0, 1] bcast_S1x256_S50000x256_0_1 (broadcastInDim S1x256 ![1] bcast_S256_S1x256_1 (m ((c.tc : Thread nD τ).loc main_arg4)))))
            (broadcastInDim S50000x256 ![] bcast_S_S50000x256 (constant S_ .f32 0x00000000#32))) := by
  unfold res_main_v51 Messages.aggregate Messages.aggregateFrom Messages.edgeNorm Messages.invSqrtDegree Messages.degree Messages.wrapped Messages.sources Messages.targets Messages.weights
  rfl

/-- THE REFERENCE'S RESULT as a function of its arguments: the specification's. -/
theorem result_eq (h : S256.ShapeCasts S1x256) (c : Dev nD) :
    res_main_v51 (F := Ideal) m c
      = biasReluResidual
          (Messages.aggregate (linear (m ((c.tc : Thread nD τ).loc main_arg0)) (transpose S256x256 [1, 0] (m ((c.tc : Thread nD τ).loc main_arg3)) transposes_S256x256_S256x256_1_0))
            (m ((c.tc : Thread nD τ).loc main_arg1)) (m ((c.tc : Thread nD τ).loc main_arg2)))
          (m ((c.tc : Thread nD τ).loc main_arg0))
          (shapeCast S1x256 (m ((c.tc : Thread nD τ).loc main_arg4)) h) := by
  rw [result_flat, product_eq_linear]
  funext i
  unfold biasReluResidual
  rw [← bias_apply (m ((c.tc : Thread nD τ).loc main_arg4)) h i, ← zero_apply i]
  rfl

end Cert.ReferenceIdeal.RefValue

end
-- ==== Proof.lean ====
/-
  A graph-convolution layer, kernel against reference, over the extended reals.

  Both programs prepare the graph in the same way (a self-loop per node, the degree of every node from the edge
  weights, the symmetric normalisation `deg^(-1/2)` where the degree is positive, one coefficient per edge), multiply the
  node features by the transposed weight matrix, gather the products along the edges, scale them by the coefficients
  and scatter-add them per target node, then add the bias, rectify and add the features back.

  The kernel computes the product in 25 row blocks of 2000 (changing the float format on the way, which is the
  identity here) where the reference takes one whole-array product: both are the same sums (`linear`). The kernel's
  last stage runs on 25 row blocks with the bias as one broadcast row where the reference applies whole-array
  operations: both are `x + max (agg + b) 0` entry by entry (`biasReluResidual`). Everything between is one function of
  the same arguments in both programs. No law of the extended reals beyond reading each operation at an index is
  needed, so the precondition is not used.
-/
import proofs.«105115_j62921270886996_1_alg».proof.Defs
import proofs.«105115_j62921270886996_1_alg».proof.Proof.Gen.Kernel
import proofs.«105115_j62921270886996_1_alg».proof.Proof.Gen.Kernel.Frame
import proofs.«105115_j62921270886996_1_alg».proof.Proof.Gen.KernelIdeal
import proofs.«105115_j62921270886996_1_alg».proof.Proof.Gen.KernelIdeal.Frame
import proofs.«105115_j62921270886996_1_alg».proof.Proof.Gen.ReferenceIdeal
import proofs.«105115_j62921270886996_1_alg».proof.Proof.Gen.Pre_finite_inputs
import proofs.«105115_j62921270886996_1_alg».proof.Proof.Gen.ReferenceIdeal.Run
import proofs.«105115_j62921270886996_1_alg».proof.Proof.Gen.ReferenceIdeal.Read
import proofs.«105115_j62921270886996_1_alg».proof.Proof.KernelRun
import proofs.«105115_j62921270886996_1_alg».proof.Proof.KernelValue
import proofs.«105115_j62921270886996_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both idealized programs end with the same result array: each is
    `biasReluResidual (aggregate (linear x wᵀ) edges weights) x bias` of its arguments. -/
theorem algebraic : Cert.algebraic_KernelIdeal_ReferenceIdeal := by
  intro m ρ m' ρ' _ hagree
  refine ⟨fun c => Cert.KernelIdeal.Gen.W6 m ρ c (Proc.devRef .tc Cert.KernelIdeal.main_v48), Cert.KernelIdeal.Out.run_out m ρ, ?_⟩
  refine (θ_run Cert.ReferenceIdeal.defs _ _).mono (fun _ h c => ⟨(h c).1.trans
      (((Cert.ReferenceIdeal.RefValue.result_eq m' Cert.KernelIdeal.Gen.shapeCasts_S256_S1x256 c).trans ?_).trans
        (Cert.KernelIdeal.Value.result_value m ρ c).symm), (h c).2⟩)
    (Cert.ReferenceIdeal.Value.run (F := Ideal) m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
